-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x1024x3 : Shape := ⟨3, ![4, 1024, 3]⟩
abbrev S4x512 : Shape := ⟨2, ![4, 512]⟩
abbrev S4x1024 : Shape := ⟨2, ![4, 1024]⟩
abbrev S4x512x1024 : Shape := ⟨3, ![4, 512, 1024]⟩
abbrev S4x512x1 : Shape := ⟨3, ![4, 512, 1]⟩
abbrev S4x1x1024 : Shape := ⟨3, ![4, 1, 1024]⟩
abbrev S_ : Shape := ⟨0, ![]⟩
abbrev S4 : Shape := ⟨1, ![4]⟩

abbrev nBuf : Space → Nat
  | .hbm => 19
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x1024x3, .f32⟩
  | .local _ .vmem, ⟨3, _⟩ => ⟨S4x1024x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x1024x3, .f32⟩
  | .local _ .vmem, ⟨10, _⟩ => ⟨S4x1024x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  inb_S4x1024x3_S4x1024x3_0_0_0 : ∀ a, (![0, 0, 0] : Fin 3 → Nat) a + S4x1024x3.size a ≤ S4x1024x3.size a
  h_S4x1024x3 : 0 < S4x1024x3.numel
  reduces_S4x512x3_S4x512 : S4x512x3.Reduces [2] S4x512
  reduces_S4x1024x3_S4x1024 : S4x1024x3.Reduces [2] S4x1024
  bitsLt_bf16_f32 : FTy.bits .bf16 < FTy.bits .f32
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S4x512x3_S4x1024x3_S4x512x1024_2_2_1_1_0_0_wf : DotDims.WF S4x512x3 S4x1024x3 S4x512x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x3.size a ≤ S4x8192x3.size a
  hwx0_1 : ∀ i : grid0.Coords, EltTy.bits .f32 = 32 ∨ (Rect.block (s := S4x8192x3) S4x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1024x3.size a ≤ S4x8192x3.size a
  hwx1_1 : ∀ i : grid1.Coords, EltTy.bits .f32 = 32 ∨ (Rect.block (s := S4x8192x3) S4x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x1024x3_S4x512x1024_2_2_1_1_0_0 : DotDims S4x512x3 S4x1024x3 S4x512x1024 where
  lhsContracting := [2]
  rhsContracting := [2]
  lhsNonContracting := [1]
  rhsNonContracting := [1]
  lhsBatch := [0]
  rhsBatch := [0]
  wf := dot_S4x512x3_S4x1024x3_S4x512x1024_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KI.Scoped.lean ====
import proofs.«160153_j42795054137808_1_alg».proof.Proof.Gen.KernelIdeal.Launch
import Idealize.ShloMosaic.Lib.Pipeline.Frame
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! # Each region's scratch, taken out of the scoped buffers the region does not stage

A region's class invariant holds every scoped buffer that is no staging buffer of the region at some contents:
the region's own scratch and the OTHER region's staging buffers and scratch. The running minimum lives in the
own scratch, so the invariant is split into that buffer and the rest, and joined again. -/

/-- The zero offsets of a whole-buffer access of a rank-2 buffer, -/
theorem hz2 : (![0, 0] : Fin 2 → Nat) = fun _ => 0 := funext fun a => by fin_cases a <;> rfl
/-- and of a rank-3 one. -/
theorem hz3 : (![0, 0, 0] : Fin 3 → Nat) = fun _ => 0 := funext fun a => by fin_cases a <;> rfl

/-- Region 0's scratch and region 1's: whole scoped buffers. -/
abbrev scM0 : Memref sig .tc .vmem S4x512 .f32 := Memref.whole cc0_scratch0
abbrev scM1 : Memref sig .tc .vmem S4x512 .f32 := Memref.whole cc1_scratch0

/-- The scoped buffers region 0 neither stages nor uses (region 1's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers region 1 neither stages nor uses (region 0's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA0_split (c : Dev nD) :
    (Pipeline.ΦA spec0 c : sProp 𝕄) ⊢ iprop(((∃ d, owns (c : Thread nD τ) scM0 fullShare d) ∗ rest0 c) ∗ (∃ r, prngReg c r)) := by
  unfold Pipeline.ΦA rest0; rw [scopedRest0_eq]; simp only [scM0, owns_whole]
  exact .rfl

theorem PhiA0_join (c : Dev nD) :
    iprop(((∃ d, owns (c : Thread nD τ) scM0 fullShare d) ∗ rest0 c) ∗ (∃ r, prngReg c r)) ⊢ (Pipeline.ΦA spec0 c : sProp 𝕄) := by
  unfold Pipeline.ΦA rest0; rw [scopedRest0_eq]; simp only [scM0, owns_whole]
  exact .rfl

theorem PhiA1_split (c : Dev nD) :
    (Pipeline.ΦA spec1 c : sProp 𝕄) ⊢ iprop(((∃ d, owns (c : Thread nD τ) scM1 fullShare d) ∗ rest1 c) ∗ (∃ r, prngReg c r)) := by
  unfold Pipeline.ΦA rest1; rw [scopedRest1_eq]; simp only [scM1, owns_whole]
  iintro ⟨⟨A0, A1, A2, A3, A4, A5, A6, HS⟩, Hg⟩
  isplitr [Hg]
  · isplitl [HS]; · iexact HS
    isplitl [A0]; · iexact A0
    isplitl [A1]; · iexact A1
    isplitl [A2]; · iexact A2
    isplitl [A3]; · iexact A3
    isplitl [A4]; · iexact A4
    isplitl [A5]; · iexact A5
    iexact A6
  iexact Hg

theorem PhiA1_join (c : Dev nD) :
    iprop(((∃ d, owns (c : Thread nD τ) scM1 fullShare d) ∗ rest1 c) ∗ (∃ r, prngReg c r)) ⊢ (Pipeline.ΦA spec1 c : sProp 𝕄) := by
  unfold Pipeline.ΦA rest1; rw [scopedRest1_eq]; simp only [scM1, owns_whole]
  iintro ⟨⟨HS, A0, A1, A2, A3, A4, A5, A6⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact HS
  iexact Hg

end Cert.KernelIdeal.Hand

end
-- ==== Proof.KI.Body0.lean ====
import proofs.«160153_j42795054137808_1_alg».proof.Proof.KI.Scoped
import proofs.«160153_j42795054137808_1_alg».proof.Proof.Gen.KernelIdeal.Launch
import proofs.«160153_j42795054137808_1_alg».proof.Proof.Gen.KernelIdeal.Skeleton
import proofs.«160153_j42795054137808_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The body of kernel 0 at one grid point, in its three control cases

The body keeps a running minimum in its scratch: at the first point of a sweep over the second grid axis
it resets the scratch to +∞, at every point it replaces the scratch `s` by `min s (tile minimum)`
(the payload `k0_pay2 x y s` of the point's two input blocks), and at the sweep's last point it
copies the scratch to the output block. -/

/-- The sweep's first point: the second grid coordinate is 0. -/
abbrev cond0_1 (i : grid0.Coords) : Prop := (Scalar.cmpi .ne (Scalar.extui (Scalar.cmpi .eq (BitVec.ofNat 32 (i 1).val) 0#32)) 0#32) = 1#1
/-- The sweep's last point: the second grid coordinate is 7. -/
abbrev cond0_2 (i : grid0.Coords) : Prop := k0_cond2 i = 1#1

section
variable (c : Dev nD) (E : Set ℕ) (i : grid0.Coords)
    (arg2 : Memref sig .tc .vmem S4x512x3 .f32) (harg2 : arg2.IsWhole)
    (arg3 : Memref sig .tc .vmem S4x1024x3 .f32) (harg3 : arg3.IsWhole)
    (arg4 : Memref sig .tc .vmem S4x512 .f32) (harg4 : arg4.IsWhole)
    (arg5 : Memref sig .tc .vmem S4x512 .f32) (harg5 : arg5.IsWhole)
    (x : Vec F S4x512x3 .f32) (y : Vec F S4x1024x3 .f32)

set_option maxHeartbeats 1000000 in
/-- FIRST point of a sweep (not the last): whatever the scratch held, it ends at the tile minimum taken against +∞;
    the output block's buffer is not touched. -/
theorem body0_first (hc1 : cond0_1 i) (hc2 : ¬cond0_2 i) (o : Vec F S4x512 .f32) (K : PUnit → sProp 𝕄) :
    iprop(owns (c : Thread nD τ) arg2 fullShare x ∗ owns (c : Thread nD τ) arg3 fullShare y ∗ owns (c : Thread nD τ) arg4 fullShare o ∗ (∃ d, owns (c : Thread nD τ) arg5 fullShare d)
        ∗ (iprop(owns (c : Thread nD τ) arg2 fullShare x ∗ owns (c : Thread nD τ) arg3 fullShare y ∗ owns (c : Thread nD τ) arg4 fullShare o ∗ owns (c : Thread nD τ) arg5 fullShare (k0_pay2 x y k0_pay1)) -∗ K ⟨⟩))
      ⊢ wp frame (wpE (defs₀ (F := F)) Variants.none c none) E (cc0__min_kernel i arg2 harg2 arg3 harg3 arg4 harg4 arg5 harg5) K := by
  simp only [cc0__min_kernel_eq_skeleton]; unfold cc0__min_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S4x512_S4x512_0_0 y⟩), View.canon_cons_unit_zero hz2]
  simp only [View.readAt_eq_ld, harg2.read_unread, harg3.read_unread, View.ld_unit_zero (S := S4x512x3) hz3, View.ld_unit_zero (S := S4x1024x3) hz3, View.ld_unit_zero (S := S4x512) hz2, View.readCov_unit_zero (S := S4x512) _ hz2]

set_option maxHeartbeats 1000000 in
/-- A MIDDLE point of a sweep: the scratch goes from `s` to its minimum with the tile minimum; the output block's buffer
    is not touched. -/
theorem body0_mid (hc1 : ¬cond0_1 i) (hc2 : ¬cond0_2 i) (o s : Vec F S4x512 .f32) (K : PUnit → sProp 𝕄) :
    iprop(owns (c : Thread nD τ) arg2 fullShare x ∗ owns (c : Thread nD τ) arg3 fullShare y ∗ owns (c : Thread nD τ) arg4 fullShare o ∗ owns (c : Thread nD τ) arg5 fullShare s
        ∗ (iprop(owns (c : Thread nD τ) arg2 fullShare x ∗ owns (c : Thread nD τ) arg3 fullShare y ∗ owns (c : Thread nD τ) arg4 fullShare o ∗ owns (c : Thread nD τ) arg5 fullShare (k0_pay2 x y s)) -∗ K ⟨⟩))
      ⊢ wp frame (wpE (defs₀ (F := F)) Variants.none c none) E (cc0__min_kernel i arg2 harg2 arg3 harg3 arg4 harg4 arg5 harg5) K := by
  simp only [cc0__min_kernel_eq_skeleton]; unfold cc0__min_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_singleton_self _, View.mem_set_unit_zero hz2 inb_S4x512_S4x512_0_0 y⟩), View.canon_unit_zero hz2]
  simp only [View.readAt_eq_ld, harg2.read_unread, harg3.read_unread, harg5.read_unread, View.ld_unit_zero (S := S4x512x3) hz3, View.ld_unit_zero (S := S4x1024x3) hz3, View.ld_unit_zero (S := S4x512) hz2, View.readCov_unit_zero (S := S4x512) _ hz2]

set_option maxHeartbeats 1000000 in
/-- The LAST point of a sweep (not the first): the scratch goes from `s` to its minimum with the tile minimum, and the
    output block's buffer, whatever it held, ends at that same value. -/
theorem body0_last (hc1 : ¬cond0_1 i) (hc2 : cond0_2 i) (s : Vec F S4x512 .f32) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare s
        ∗ (iprop(owns (c : Thread nD τ) arg2 fullShare x ∗ owns (c : Thread nD τ) arg3 fullShare y ∗ owns (c : Thread nD τ) arg4 fullShare (k0_pay2 x y s) ∗ owns (c : Thread nD τ) arg5 fullShare (k0_pay2 x y s)) -∗ K ⟨⟩))
      ⊢ wp frame (wpE (defs₀ (F := F)) Variants.none c none) E (cc0__min_kernel i arg2 harg2 arg3 harg3 arg4 harg4 arg5 harg5) K := by
  simp only [cc0__min_kernel_eq_skeleton]; unfold cc0__min_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (fun y => ⟨_, List.mem_singleton_self _, View.mem_set_unit_zero hz2 inb_S4x512_S4x512_0_0 y⟩), View.canon_unit_zero hz2]
    simp only [View.readAt_eq_ld, harg2.read_unread, harg3.read_unread, harg5.read_unread, View.ld_unit_zero (S := S4x512x3) hz3, View.ld_unit_zero (S := S4x1024x3) hz3, View.ld_unit_zero (S := S4x512) hz2, View.readCov_unit_zero (S := S4x512) _ hz2]
  iexists _; isplitr
  swap; · iexact H5
  ipureintro
  sl_unfold_words
  rw [View.read_writes_eq_canon _ _ _ (fun y => ⟨_, List.mem_singleton_self _, View.mem_set_unit_zero hz2 inb_S4x512_S4x512_0_0 y⟩), View.canon_unit_zero hz2]
  simp only [View.readAt_eq_ld, harg2.read_unread, harg3.read_unread, harg5.read_unread, View.ld_unit_zero (S := S4x512x3) hz3, View.ld_unit_zero (S := S4x1024x3) hz3, View.ld_unit_zero (S := S4x512) hz2, View.readCov_unit_zero (S := S4x512) _ hz2]

end

end Cert.KernelIdeal.Hand

end
-- ==== Proof.KI.Region0.lean ====
import proofs.«160153_j42795054137808_1_alg».proof.Proof.KI.Body0
import proofs.«160153_j42795054137808_1_alg».proof.Proof.KI.Scoped

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 0 as a pipeline with a running minimum carried in its scratch

Entered with the core's buffers at contents `V`. Grid point `t = 8·i + j` works on row block `i` of the first
operand and column block `j` of the second; over `j = 0 … 7` the scratch holds the minimum, over the column
blocks seen so far, of each row's squared distances, and at `j = 7` that minimum is the output block `i`. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block (first operand) and the column block (second operand) of point `t`, at their literal types. -/
abbrev xb0 (c : Dev nD) (t : Fin cfg0.N) : Vec F S4x512x3 .f32 := iblk0 V c 0 t
abbrev yb0 (c : Dev nD) (t : Fin cfg0.N) : Vec F S4x1024x3 .f32 := iblk0 V c 1 t

/-- What the scratch holds after point `n`: at the first point of a sweep (`n ≡ 0 mod 8`) the tile minimum against +∞,
    afterwards the minimum of what the point before left with this point's tile minimum. -/
def scr0 (c : Dev nD) : (n : ℕ) → n < cfg0.N → Vec F S4x512 .f32
  | 0, h => k0_pay2 (xb0 V c ⟨0, h⟩) (yb0 V c ⟨0, h⟩) k0_pay1
  | n + 1, h =>
    if (n + 1) % 8 = 0 then k0_pay2 (xb0 V c ⟨n + 1, h⟩) (yb0 V c ⟨n + 1, h⟩) k0_pay1
    else k0_pay2 (xb0 V c ⟨n + 1, h⟩) (yb0 V c ⟨n + 1, h⟩) (scr0 c n (Nat.lt_of_succ_lt h))

theorem scr0_first (c : Dev nD) (t : Fin cfg0.N) (h : t.val % 8 = 0) :
    scr0 V c t.val t.isLt = k0_pay2 (xb0 V c t) (yb0 V c t) k0_pay1 := by
  obtain ⟨n, hn⟩ := t
  cases n with
  | zero => rfl
  | succ n => exact if_pos h

theorem scr0_next (c : Dev nD) (t : Fin cfg0.N) (h : ¬t.val % 8 = 0) :
    scr0 V c t.val t.isLt = k0_pay2 (xb0 V c t) (yb0 V c t) (scr0 V c (t.val - 1) (Nat.lt_of_le_of_lt (Nat.sub_le _ _) t.isLt)) := by
  obtain ⟨n, hn⟩ := t
  cases n with
  | zero => exact absurd (Nat.zero_mod _) h
  | succ n => exact if_neg h

/-! ## The schedule in closed form -/

theorem hcond0_1 : ∀ t : Fin cfg0.N, cond0_1 (grid0.coords t) ↔ t.val % 8 = 0 :=
  (by decide +kernel : ∀ t : Fin grid0.N, cond0_1 (grid0.coords t) ↔ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)
/-- The output window is idle, and not written back, off the sweep's last point; live at it. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- The region invariant before position `n`: before the first point the class's (the scratch at anything); afterwards
    the scratch at what the point before left. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ rest0 c) ∗ (∃ r, prngReg c r))

theorem PhiS0_succ (c : Dev nD) (n : ℕ) (hn : n < cfg0.N) :
    PhiS0 V c (n + 1) hn = iprop((owns (c : Thread nD τ) scM0 fullShare (scr0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (scr0 V c (n - 1) (by omega)) ∗ rest0 c) ∗ (∃ r, prngReg c r)) := by
  cases n with
  | zero => exact absurd rfl hz
  | succ n => rfl

/-- At any position the invariant holds the scratch at SOME contents (all a sweep's first point needs). -/
theorem PhiS0_any (c : Dev nD) (n : ℕ) (h : n ≤ cfg0.N) :
    PhiS0 V c n h ⊢ iprop(((∃ d, owns (c : Thread nD τ) scM0 fullShare d) ∗ rest0 c) ∗ (∃ r, prngReg c r)) := by
  cases n with
  | zero => exact PhiA0_split c
  | succ n =>
    rw [PhiS0_succ]
    iintro ⟨⟨HS, Hr⟩, Hg⟩
    isplitl [HS Hr]
    · isplitl [HS]; · iexists _; iexact HS
      iexact Hr
    iexact Hg

/-! ## The proof data -/

/-- The pipeline's proof data on core `c`: the arrays as the region finds them; after the body at point `t` each input's
    buffer at its block and the output's at the scratch's contents (what the sweep's last point stores there; at the
    other points the window is idle and this is not consulted); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scr0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scr0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms say which of the three cases the
    point is in; the invariant hands the scratch over at what the point before left (at anything at a sweep's first
    point) and takes it back at this point's contents; off the sweep's last point the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [PhiS0_castSucc V c t]
  have hN : t.val < 128 := lt_of_lt_of_eq t.isLt (show cfg0.N = 128 from N_0)
  by_cases h2 : t.val % 8 = 7
  · -- the sweep's last point
    have h1 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_2 t).mpr h2)], after0_2]
    rw [scr0_next V c t h1, PhiS0_pos V c _ _ hz]
    iintro ⟨⟨⟨HS, Hr⟩, Hg⟩, Ho, ⟨%d0, H0⟩, ⟨%d1, H1⟩, ⟨%d2, H2⟩⟩
    iapply (body0_last c Set.univ (grid0.coords t) _ _ _ _ _ _ _ _ (xb0 V c t) (yb0 V c t) (fun h => h1 ((hcond0_1 t).mp h)) ((hcond0_2 t).mpr h2) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idleAt0_2 t (fun h => h2 ((hcond0_2 t).mp h))) (noFlush0_2 t (fun h => h2 ((hcond0_2 t).mp h)))]
    by_cases h1 : t.val % 8 = 0
    · -- a sweep's first point
      rw [scr0_first V c t h1]
      iintro ⟨HΦ, Ho, ⟨%d0, H0⟩, ⟨%d1, H1⟩, ⟨%d2, H2⟩⟩
      ihave HΦ' := (PhiS0_any V c _ _) $$ HΦ
      icases HΦ' with ⟨⟨HS, Hr⟩, Hg⟩
      iapply (body0_first c Set.univ (grid0.coords t) _ _ _ _ _ _ _ _ (xb0 V c t) (yb0 V c t) ((hcond0_1 t).mpr h1) (fun h => h2 ((hcond0_2 t).mp h)) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · -- a middle point
      have hz : t.val ≠ 0 := fun e => h1 (by rw [e])
      rw [scr0_next V c t h1, PhiS0_pos V c _ _ hz]
      iintro ⟨⟨⟨HS, Hr⟩, Hg⟩, Ho, ⟨%d0, H0⟩, ⟨%d1, H1⟩, ⟨%d2, H2⟩⟩
      iapply (body0_mid c Set.univ (grid0.coords t) _ _ _ _ _ _ _ _ (xb0 V c t) (yb0 V c t) (fun h => h1 ((hcond0_1 t).mp h)) (fun h => h2 ((hcond0_2 t).mp h)) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := .rfl

/-- and after the last point the invariant gives it back (the scratch's contents forgotten). -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_any V c _ _).trans (PhiA0_join c)

end

end Cert.KernelIdeal.Hand

end
-- ==== Proof.KI.Run.lean ====
import proofs.«160153_j42795054137808_1_alg».proof.Proof.KI.Region0
import proofs.«160153_j42795054137808_1_alg».proof.Proof.KI.Region1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: region 0, region 1, then the host operations

The buffers' contents at each boundary are a fold from the launch memory: a region leaves its arrays at what its
write-backs make of them (its inputs as entered) and every other buffer as entered; the host operations then act
on that. Each argument array, read back through the fold, holds its launch contents. -/

/-- Core `c`'s buffers at launch; read at the TensorCore's references. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1, entered from region 0's exit contents. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations that follow the regions. -/
abbrev W3 : Dev nD → Valuation τ sig (Elt F) := fun c => StableHlo.after hostOps2 (W2 m c)

/-! ## The arguments end as launched -/

theorem hostOps2_keeps (c : Dev nD) (b : Ref sig .tc) (hb : b = main_arg0 ∨ b = main_arg1) :
    W3 m c (Proc.devRef .tc b) = W2 m c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    rcases hb with rfl | rfl
    all_goals
      repeat' apply And.intro
      all_goals exact StableHlo.devRef_ne_of_ne (by decide)))

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))

theorem W3_main_arg0 (c : Dev nD) : W3 m c (Proc.devRef .tc main_arg0) = m ((c : Thread nD τ).loc main_arg0) :=
  calc W3 m c (Proc.devRef .tc main_arg0)
    _ = W2 m c (Proc.devRef .tc main_arg0) := hostOps2_keeps m c main_arg0 (.inl rfl)
    _ = W1 m c (Proc.devRef .tc main_arg0) := (W2_arr m c 1).trans (((dat1 (V1 m) c).arrAt_in 1 rfl _).trans (A_eq1 (V1 m) c 1))
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := hostOps2_keeps m c main_arg1 (.inr rfl)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The host operations as a segment, from the contents `W2`. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W0`, left at `W1`. Its arrays split out of
    the unscoped buffers and put back at the exit contents; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer at the fold's last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Hand

end
-- ==== Proof.Spec.lean ====
import Idealize.ShloMosaic.PureOps.Ideal.Laws
import Idealize.ShloMosaic.Lib.ValueIdx

noncomputable section

/-! # The chamfer distance, as one function of the two point clouds

`x, y : [4, 8192, 3]` hold 4 batches of 8192 points in 3 coordinates. For points `n` of `x` and `m` of `y` in batch `b`
the squared distance is taken in the expanded form `|x_n|² + |y_m|² − 2 ⟨x_n, y_m⟩`; `minD x y` is, for each point of `x`,
the minimum of that over the points of `y` (starting from +∞), and `tail` averages the two directions' minima. -/

namespace Cert.Spec

open Idealize.ShloMosaic Idealize.ShloMosaic.ValueIdx

/-- The shapes: a point cloud, a per-point value, a per-batch value, a scalar. -/
abbrev SA : Shape := ⟨3, ![4, 8192, 3]⟩
abbrev SO : Shape := ⟨2, ![4, 8192]⟩
abbrev S4 : Shape := ⟨1, ![4]⟩
abbrev S_ : Shape := ⟨0, ![]⟩

/-- The literal 2.0 and the literal +∞, kept as their words (the same words on both sides). -/
abbrev two : EReal := Ideal.ofBits .f32 0x40000000#32
abbrev pinf : EReal := Ideal.ofBits .f32 0x7F800000#32

/-- `|x_n|²` in batch `b`. -/
def sq (x : SA.Idx → EReal) (b : Fin 4) (n : Fin 8192) : EReal := ∑ d : Fin 3, x (ix3 b n d) * x (ix3 b n d)
/-- `⟨x_n, y_m⟩` in batch `b`. -/
def dotp (x y : SA.Idx → EReal) (b : Fin 4) (n m : Fin 8192) : EReal := ∑ d : Fin 3, x (ix3 b n d) * y (ix3 b m d)
/-- The squared distance of `x_n` and `y_m`, expanded. -/
def dist (x y : SA.Idx → EReal) (b : Fin 4) (n m : Fin 8192) : EReal := (sq x b n + sq y b m) - two * dotp x y b n m

/-- The expanded squared distance is symmetric: sums and products of extended reals commute. -/
theorem dist_comm (x y : SA.Idx → EReal) (b : Fin 4) (n m : Fin 8192) : dist y x b m n = dist x y b n m := by
  unfold dist dotp
  rw [add_comm (sq y b m) (sq x b n)]
  exact congrArg (fun z => (sq x b n + sq y b m) - two * z) (Finset.sum_congr rfl fun d _ => mul_comm _ _)

/-- The same expanded squared distance between row `r` of a block of 512 points and row `q` of a block of 1024 points. -/
def tdist (x : (⟨3, ![4, 512, 3]⟩ : Shape).Idx → EReal) (y : (⟨3, ![4, 1024, 3]⟩ : Shape).Idx → EReal) (b : Fin 4) (r : Fin 512) (q : Fin 1024) : EReal :=
  ((∑ d : Fin 3, x (ix3 b r d) * x (ix3 b r d)) + (∑ d : Fin 3, y (ix3 b q d) * y (ix3 b q d)))
    - two * ∑ d : Fin 3, x (ix3 b r d) * y (ix3 b q d)

/-- For each point of `x`, the least squared distance to a point of `y` (from +∞). -/
def minD (x y : SA.Idx → EReal) : SO.Idx → EReal :=
  fun i => (Finset.univ : Finset (Fin 8192)).fold min pinf (fun m => dist x y (i 0) (i 1) m)

/-- The mean over the points, then the two directions added, then the mean over the batches: the host operations both
    programs end with, as ONE function of the two directions' minima. -/
def tail (h1 : SO.ReducesTo [1] S4) (h0 : 0 < S_.numel) (hb : S_.BroadcastsInDim S4 (![] : Fin 0 → Fin S4.rank)) (h2 : S4.ReducesTo [0] S_)
    (a b : FVec Ideal SO .f32) : FVec Ideal S_ .f32 :=
  Host.divf
    (Host.reduceAdd
      (addf
        (Host.divf (Host.reduceAdd a (constant (F := Ideal) S_ .f32 0x00000000#32) h1 h0) (broadcastInDim S4 ![] hb (constant (F := Ideal) S_ .f32 0x46000000#32)))
        (Host.divf (Host.reduceAdd b (constant (F := Ideal) S_ .f32 0x00000000#32) h1 h0) (broadcastInDim S4 ![] hb (constant (F := Ideal) S_ .f32 0x46000000#32))))
      (constant (F := Ideal) S_ .f32 0x00000000#32) h2 h0)
    (constant (F := Ideal) S_ .f32 0x40800000#32)

end Cert.Spec

end
-- ==== Proof.LibReduceMin.lean ====
/-
  A general lemma: a float `vector.multi_reduction <minimumf>` over ONE axis, read at the ideal values, is at each
  reduced index the fold of `min` from the accumulator's value over that axis's coordinates, in any order. (The
  library states this for `<maximumf>`; the proof for `<minimumf>` is the same two steps: the reduction is the fold
  over the set of source indices that drop to the reduced index, and that set is the image of the axis's
  coordinates under the injective map that inserts the coordinate.)
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibLayout.lean ====
/-
  General lemmas: layout operations and reductions over the last axis of a rank-3 array, read at an index given by its
  coordinates. A shape cast that adds a unit axis after or between the two axes of a matrix reads the matrix at the two
  remaining coordinates; a broadcast along a unit axis reads the operand at coordinate `0` of that axis; a sum or a minimum
  over the last of three axes is, at `(i, j)`, the sum or the fold of `min` over `k` of the operand at `(i, j, k)`.
-/
import proofs.«160153_j42795054137808_1_alg».proof.Proof.LibReduceMin
import Idealize.ShloMosaic.PureOps.Ideal.Laws
import Idealize.ShloMosaic.Lib.ValueIdx
import Idealize.ShloMosaic.Lib.ValueLayout
import Idealize.ShloMosaic.Lib.Pipeline.Value

namespace Cert.LibLayout

open Idealize.ShloMosaic Idealize.ShloMosaic.ValueIdx

section Layout
variable {α : Type}

/-- An `[a, b]` array cast to `[a, b, 1]` (a trailing unit axis added) reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` (a unit axis put in the middle) reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array (one column per row) broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array (one row per batch) broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

section Reduce

/-- The index that a reduction over the last of three axes inserts coordinate `k` into, over `(i, j)`, is `(i, j, k)`. -/
theorem lift_last3 {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by match ax with | ⟨0, _⟩ => rfl | ⟨1, _⟩ => rfl | ⟨2, _⟩ => rfl)

/-- A sum over the last of three axes, read at `(i, j)` over the extended reals: the sum over `k` of the operand at `(i, j, k)`.
    The accumulator is the zero word, the sum's neutral element. -/
theorem multiReduction_add_last3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (lift_last3 h i j k))

/-- A minimum over the last of three axes from +∞, read at `(i, j)` over the extended reals: the fold of `min` from +∞
    over `k` of the operand at `(i, j, k)`. -/
theorem multiReduction_minimumf_last3 {a b c : ℕ} (src : FVec Ideal ⟨3, ![a, b, c]⟩ .f32)
    (h : (⟨3, ![a, b, c]⟩ : Shape).Reduces [2] ⟨2, ![a, b]⟩) (hφ : FKind.Formats .f32)
    (hacc : (0x7F800000#32 : BitVec 32) = 0x7F800000#32) (i : Fin a) (j : Fin b) :
    multiReduction .minimumf [2] ⟨2, ![a, b]⟩ src 0x7F800000#32 h hφ hacc (ix2 i j)
      = (Finset.univ : Finset (Fin c)).fold min (Ideal.ofBits .f32 0x7F800000#32) (fun k => src (ix3 i j k)) :=
  (Ideal.multiReduction_minimumf_single src 0x7F800000#32 h hφ hacc (ix2 i j)).trans
    (congrArg ((Finset.univ : Finset (Fin c)).fold min (Ideal.ofBits .f32 0x7F800000#32))
      (funext fun k => congrArg src (lift_last3 h i j k)))

end Reduce

end Cert.LibLayout
-- ==== Proof.KI.Pay0.lean ====
import proofs.«160153_j42795054137808_1_alg».proof.Proof.Gen.KernelIdeal.Skeleton
import proofs.«160153_j42795054137808_1_alg».proof.Proof.Spec
import proofs.«160153_j42795054137808_1_alg».proof.Proof.LibReduceMin
import proofs.«160153_j42795054137808_1_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen
open Cert.LibLayout

/-! # The kernel's two stored values, read at an index over the extended reals -/

/-! The batched product `[4, 512, 3] × [4, 1024, 3] → [4, 512, 1024]` contracts the last axis of both operands, keeps the
    batch axis `0` of both, and takes the left operand's axis `1` to the result's axis `1` and the right operand's axis `1` to
    the result's axis `2`. The six lemmas read the operands' indices one axis at a time. -/

theorem pay0_lhs_batch (i : S4x512x1024.Idx) (q : dot_S4x512x3_S4x1024x3_S4x512x1024_2_2_1_1_0_0.contr.Idx) :
    (dot_S4x512x3_S4x1024x3_S4x512x1024_2_2_1_1_0_0.lhsIdx i q 0).val = (i 0).val := by
  unfold DotDims.lhsIdx
  rw [dif_pos (show (0 : Fin S4x512x3.rank) ∈ dot_S4x512x3_S4x1024x3_S4x512x1024_2_2_1_1_0_0.lhsBatch by decide)]
  rfl
theorem pay0_lhs_row (i : S4x512x1024.Idx) (q : dot_S4x512x3_S4x1024x3_S4x512x1024_2_2_1_1_0_0.contr.Idx) :
    (dot_S4x512x3_S4x1024x3_S4x512x1024_2_2_1_1_0_0.lhsIdx i q 1).val = (i 1).val := by
  unfold DotDims.lhsIdx
  rw [dif_neg (show ¬(1 : Fin S4x512x3.rank) ∈ dot_S4x512x3_S4x1024x3_S4x512x1024_2_2_1_1_0_0.lhsBatch by decide), dif_pos (show (1 : Fin S4x512x3.rank) ∈ dot_S4x512x3_S4x1024x3_S4x512x1024_2_2_1_1_0_0.lhsNonContracting by decide)]
  rfl
theorem pay0_lhs_contr (i : S4x512x1024.Idx) (q : dot_S4x512x3_S4x1024x3_S4x512x1024_2_2_1_1_0_0.contr.Idx) :
    (dot_S4x512x3_S4x1024x3_S4x512x1024_2_2_1_1_0_0.lhsIdx i q 2).val = (q ⟨0, by decide⟩).val :=
  dot_S4x512x3_S4x1024x3_S4x512x1024_2_2_1_1_0_0.lhsIdx_val_of_single rfl i q
theorem pay0_rhs_batch (i : S4x512x1024.Idx) (q : dot_S4x512x3_S4x1024x3_S4x512x1024_2_2_1_1_0_0.contr.Idx) :
    (dot_S4x512x3_S4x1024x3_S4x512x1024_2_2_1_1_0_0.rhsIdx i q 0).val = (i 0).val := by
  unfold DotDims.rhsIdx
  rw [dif_pos (show (0 : Fin S4x1024x3.rank) ∈ dot_S4x512x3_S4x1024x3_S4x512x1024_2_2_1_1_0_0.rhsBatch by decide)]
  rfl
theorem pay0_rhs_row (i : S4x512x1024.Idx) (q : dot_S4x512x3_S4x1024x3_S4x512x1024_2_2_1_1_0_0.contr.Idx) :
    (dot_S4x512x3_S4x1024x3_S4x512x1024_2_2_1_1_0_0.rhsIdx i q 1).val = (i 2).val := by
  unfold DotDims.rhsIdx
  rw [dif_neg (show ¬(1 : Fin S4x1024x3.rank) ∈ dot_S4x512x3_S4x1024x3_S4x512x1024_2_2_1_1_0_0.rhsBatch by decide), dif_pos (show (1 : Fin S4x1024x3.rank) ∈ dot_S4x512x3_S4x1024x3_S4x512x1024_2_2_1_1_0_0.rhsNonContracting by decide)]
  rfl
theorem pay0_rhs_contr (i : S4x512x1024.Idx) (q : dot_S4x512x3_S4x1024x3_S4x512x1024_2_2_1_1_0_0.contr.Idx) :
    (dot_S4x512x3_S4x1024x3_S4x512x1024_2_2_1_1_0_0.rhsIdx i q 2).val = (q ⟨0, by decide⟩).val :=
  dot_S4x512x3_S4x1024x3_S4x512x1024_2_2_1_1_0_0.rhsIdx_val_of_single rfl i q

/-- The batched product into the zero accumulator, read at `(b, r, q)` over the extended reals: the inner product of row `r`
    of the left operand and row `q` of the right operand, in batch `b`. -/
theorem pay0_matmul_apply {φ₁ φ₂ : FTy} (x : FVec Ideal S4x512x3 φ₁) (y : FVec Ideal S4x1024x3 φ₂) (b : Fin 4) (r : Fin 512) (q : Fin 1024) :
    matmul dot_S4x512x3_S4x1024x3_S4x512x1024_2_2_1_1_0_0 none x y (constant (F := Ideal) S4x512x1024 .f32 0x00000000#32) (ix3 b r q)
      = ∑ d : Fin 3, x (ix3 b r d) * y (ix3 b q d) := by
  show FloatOps.matmul dot_S4x512x3_S4x1024x3_S4x512x1024_2_2_1_1_0_0 none x y (constant (F := Ideal) S4x512x1024 .f32 0x00000000#32) (ix3 b r q) = _
  rw [Ideal.matmul_constant_zero_apply, ← Equiv.sum_comp (contrEquiv1 dot_S4x512x3_S4x1024x3_S4x512x1024_2_2_1_1_0_0 3 rfl rfl).symm]
  refine Finset.sum_congr rfl fun k _ => ?_
  have hk := contrEquiv1_symm_val dot_S4x512x3_S4x1024x3_S4x512x1024_2_2_1_1_0_0 3 rfl rfl k
  have el : dot_S4x512x3_S4x1024x3_S4x512x1024_2_2_1_1_0_0.lhsIdx (ix3 b r q) ((contrEquiv1 dot_S4x512x3_S4x1024x3_S4x512x1024_2_2_1_1_0_0 3 rfl rfl).symm k) = ix3 b r k := funext fun a => Fin.ext (by
    match a with
    | ⟨0, _⟩ => exact pay0_lhs_batch _ _
    | ⟨1, _⟩ => exact pay0_lhs_row _ _
    | ⟨2, _⟩ => exact (pay0_lhs_contr _ _).trans hk)
  have er : dot_S4x512x3_S4x1024x3_S4x512x1024_2_2_1_1_0_0.rhsIdx (ix3 b r q) ((contrEquiv1 dot_S4x512x3_S4x1024x3_S4x512x1024_2_2_1_1_0_0 3 rfl rfl).symm k) = ix3 b q k := funext fun a => Fin.ext (by
    match a with
    | ⟨0, _⟩ => exact pay0_rhs_batch _ _
    | ⟨1, _⟩ => exact pay0_rhs_row _ _
    | ⟨2, _⟩ => exact (pay0_rhs_contr _ _).trans hk)
  rw [el, er]

/-- The reset value is +∞ everywhere. -/
theorem pay0_1_apply (i : S4x512.Idx) : (k0_pay1 (F := Ideal) : Vec Ideal S4x512 .f32) i = Cert.Spec.pinf := by
  unfold k0_pay1
  exact congrFun (shapeCast_self _ _) i

/-- The accumulated value: the old scratch against the minimum over the column block's rows of the squared distance. -/
theorem pay0_2_apply (x : Vec Ideal S4x512x3 .f32) (y : Vec Ideal S4x1024x3 .f32) (s : Vec Ideal S4x512 .f32) (b : Fin 4) (r : Fin 512) :
    (k0_pay2 (F := Ideal) x y s : Vec Ideal S4x512 .f32) (ix2 b r)
      = min (s (ix2 b r)) ((Finset.univ : Finset (Fin 1024)).fold min Cert.Spec.pinf (fun q => Cert.Spec.tdist x y b r q)) := by
  unfold k0_pay2
  -- the outer cast is onto the same shape; then the pointwise minimum against the old value
  refine (congrFun (shapeCast_self _ _) (ix2 b r)).trans ?_
  refine (minimumf_apply _ _ _).trans ?_
  refine congrArg (min (s (ix2 b r))) ?_
  -- the minimum over the last axis, term by term
  refine (multiReduction_minimumf_last3 _ _ _ _ b r).trans ?_
  refine congrArg ((Finset.univ : Finset (Fin 1024)).fold min Cert.Spec.pinf) (funext fun q => ?_)
  unfold Cert.Spec.tdist
  refine (subf_apply _ _ _).trans ?_
  refine congrArg₂ (fun u v : EReal => u - v)
    ((addf_apply _ _ _).trans (congrArg₂ (fun u v : EReal => u + v) ?_ ?_))
    ((mulf_apply _ _ _).trans (congrArg (fun v : EReal => Cert.Spec.two * v) ?_))
  · -- the row's squared norm, kept as a column and repeated along the row
    refine (broadcastTo_ab1_abc_apply _ _ b r q).trans ?_
    refine (shapeCast_ab_ab1_apply _ _ b r 0).trans ?_
    exact multiReduction_add_last3 (mulf x x) _ _ _ b r
  · -- the column block's squared norms, kept as a row and repeated down the column
    refine (broadcastTo_a1c_abc_apply _ _ b r q).trans ?_
    refine (shapeCast_ab_a1b_apply _ _ b 0 q).trans ?_
    exact multiReduction_add_last3 (mulf y y) _ _ _ b q
  · -- the inner product; narrowing the operands is the identity on the values
    exact pay0_matmul_apply _ _ b r q

end Cert.KernelIdeal.Hand

end
-- ==== Proof.LibFoldMin.lean ====
import proofs.«160153_j42795054137808_1_alg».proof.Proof.Spec
import Mathlib.Data.Finset.Fold
import Mathlib.Data.EReal.Basic

noncomputable section

/-! # A running minimum over an initial stretch of 8192 points, taken block by block

The minimum of a function of 8192 points, from +∞, is reached by taking it over blocks of 1024 consecutive points in
turn: the minimum below a block against the block's own minimum is the minimum below the block's end. Minima are
compared through their universal property (a value is below a minimum iff it is below every entry), so no order of
evaluation matters. -/

namespace Cert.LibFoldMin

/-- The minimum, from +∞, of `f` over the points below `k`. -/
def minBelow (f : Fin 8192 → EReal) (k : ℕ) : EReal :=
  ((Finset.univ : Finset (Fin 8192)).filter fun m => m.val < k).fold min Cert.Spec.pinf f

/-- Below no point the minimum is the starting value. -/
theorem minBelow_zero (f : Fin 8192 → EReal) : minBelow f 0 = Cert.Spec.pinf := by
  unfold minBelow
  rw [Finset.filter_false_of_mem (fun m _ => Nat.not_lt_zero _)]
  exact Finset.fold_empty

/-- Below every point it is the minimum over all of them. -/
theorem minBelow_all (f : Fin 8192 → EReal) : minBelow f 8192 = (Finset.univ : Finset (Fin 8192)).fold min Cert.Spec.pinf f := by
  unfold minBelow
  rw [Finset.filter_true_of_mem (fun m _ => m.isLt)]

/-- One more block of 1024 points: the minimum below the block against the block's own minimum is the minimum below the
    block's end. Both sides are the greatest lower bound of the same values. -/
theorem minBelow_block (f : Fin 8192 → EReal) (g : Fin 1024 → EReal) (j : ℕ) (hj : j < 8)
    (hg : ∀ (q : Fin 1024) (m : Fin 8192), m.val = 1024 * j + q.val → g q = f m) :
    min (minBelow f (1024 * j)) ((Finset.univ : Finset (Fin 1024)).fold min Cert.Spec.pinf g) = minBelow f (1024 * (j + 1)) := by
  unfold minBelow
  refine eq_of_forall_le_iff fun c => ?_
  rw [le_min_iff, Finset.le_fold_min, Finset.le_fold_min, Finset.le_fold_min]
  constructor
  · rintro ⟨⟨h0, h1⟩, -, h2⟩
    refine ⟨h0, fun m hm => ?_⟩
    have hm' : m.val < 1024 * (j + 1) := (Finset.mem_filter.mp hm).2
    by_cases hlt : m.val < 1024 * j
    · exact h1 m (Finset.mem_filter.mpr ⟨Finset.mem_univ _, hlt⟩)
    · have h := h2 ⟨m.val - 1024 * j, by omega⟩ (Finset.mem_univ _)
      rwa [hg ⟨m.val - 1024 * j, by omega⟩ m (by show m.val = 1024 * j + (m.val - 1024 * j); omega)] at h
  · rintro ⟨h0, h1⟩
    refine ⟨⟨h0, fun m hm => h1 m ?_⟩, h0, fun q _ => ?_⟩
    · have hm' : m.val < 1024 * j := (Finset.mem_filter.mp hm).2
      exact Finset.mem_filter.mpr ⟨Finset.mem_univ _, by omega⟩
    · have hq : q.val < 1024 := q.isLt
      rw [hg q ⟨1024 * j + q.val, by omega⟩ rfl]
      exact h1 _ (Finset.mem_filter.mpr ⟨Finset.mem_univ _, by show 1024 * j + q.val < 1024 * (j + 1); omega⟩)

end Cert.LibFoldMin

end
-- ==== Proof.KI.Value0.lean ====
import proofs.«160153_j42795054137808_1_alg».proof.Proof.KI.Region0
import proofs.«160153_j42795054137808_1_alg».proof.Proof.KI.Pay0
import proofs.«160153_j42795054137808_1_alg».proof.Proof.LibFoldMin

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open Cert.LibFoldMin

/-! # What region 0 leaves in its output array -/

/-! ## The windows' block indices and the blocks read off the operands -/

/-- The block indices of the three windows, decided once over the grid: point `t` has row block `t / 8` and column
    block `t % 8`, and every other block index is 0. -/
theorem arr0_idx : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The output block is written back exactly at a sweep's last point. -/
theorem arr0_flush : ∀ t : Fin cfg0.N, (cfg0.win 2).flush t = true ↔ t.val % 8 = 7 :=
  (by decide +kernel : ∀ t : Fin grid0.N, _)

/-- The grid has 128 points. -/
theorem arr0_N : cfg0.N = 128 := by decide +kernel

section
variable (V : (c : Dev nD) → (b : Ref sig .tc) → Buf (Elt Ideal) ((c : Thread nD τ).loc b))

/-- The two operands as the region finds them, at their literal type. -/
abbrev arr0_x (c : Dev nD) : S4x8192x3.Idx → EReal := V c (Pipeline.arrRef spec0 0)
abbrev arr0_y (c : Dev nD) : S4x8192x3.Idx → EReal := V c (Pipeline.arrRef spec0 1)

/-- Row `r` of the row block of point `t` is row `512·(t/8) + r` of the first operand. -/
theorem arr0_xb_apply (c : Dev nD) (t : Fin cfg0.N) (b : Fin 4) (r : Fin 512) (d : Fin 3) (n : Fin 8192)
    (hn : n.val = 512 * (t.val / 8) + r.val) :
    (xb0 V c t : Vec Ideal S4x512x3 .f32) (ix3 b r d) = arr0_x V c (ix3 b n d) := by
  obtain ⟨e0, e1, e2, -⟩ := arr0_idx t
  unfold xb0 iblk0
  rw [View.read_apply]
  show V c (Pipeline.arrRef spec0 0) _ = V c (Pipeline.arrRef spec0 0) _
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = n.val; rw [e1, hn]; omega
  | ⟨2, _⟩ => show win0_0.index t (2 : Fin 3) * 3 + 1 * d.val = d.val; rw [e2]; omega

/-- Row `q` of the column block of point `t` is row `1024·(t%8) + q` of the second operand. -/
theorem arr0_yb_apply (c : Dev nD) (t : Fin cfg0.N) (b : Fin 4) (q : Fin 1024) (d : Fin 3) (m : Fin 8192)
    (hm : m.val = 1024 * (t.val % 8) + q.val) :
    (yb0 V c t : Vec Ideal S4x1024x3 .f32) (ix3 b q d) = arr0_y V c (ix3 b m d) := by
  obtain ⟨-, -, -, e0, e1, e2, -⟩ := arr0_idx t
  unfold yb0 iblk0
  rw [View.read_apply]
  show V c (Pipeline.arrRef spec0 1) _ = V c (Pipeline.arrRef spec0 1) _
  congr 1
  funext a
  apply Fin.ext
  match a with
  | ⟨0, _⟩ => show win0_1.index t (0 : Fin 3) * 4 + 1 * b.val = b.val; rw [e0]; omega
  | ⟨1, _⟩ => show win0_1.index t (1 : Fin 3) * 1024 + 1 * q.val = m.val; rw [e1, hm]; omega
  | ⟨2, _⟩ => show win0_1.index t (2 : Fin 3) * 3 + 1 * d.val = d.val; rw [e2]; omega

/-- So the tile's squared distance is the operands' squared distance at those rows. -/
theorem arr0_tdist (c : Dev nD) (t : Fin cfg0.N) (b : Fin 4) (r : Fin 512) (q : Fin 1024) (n m : Fin 8192)
    (hn : n.val = 512 * (t.val / 8) + r.val) (hm : m.val = 1024 * (t.val % 8) + q.val) :
    Cert.Spec.tdist (xb0 V c t) (yb0 V c t) b r q = Cert.Spec.dist (arr0_x V c) (arr0_y V c) b n m := by
  unfold Cert.Spec.tdist Cert.Spec.dist Cert.Spec.sq Cert.Spec.dotp
  simp only [arr0_xb_apply V c t b r _ n hn, arr0_yb_apply V c t b q _ m hm]

/-! ## The scratch after every point -/

/-- After point `n` of the grid the scratch holds, at row `r` of batch `b`, the least squared distance of row
    `512·(n/8) + r` of the first operand to the rows of the second below `1024·(n%8 + 1)`: the column blocks the sweep
    has seen. By induction on the point; a sweep's first point starts from +∞, which is the minimum below no row. -/
theorem arr0_scr (c : Dev nD) : ∀ (n : ℕ) (h : n < cfg0.N) (b : Fin 4) (r : Fin 512) (row : Fin 8192),
    row.val = 512 * (n / 8) + r.val →
    (scr0 V c n h : Vec Ideal S4x512 .f32) (ix2 b r) = minBelow (fun m => Cert.Spec.dist (arr0_x V c) (arr0_y V c) b row m) (1024 * (n % 8 + 1)) := by
  intro n
  induction n with
  | zero =>
    intro h b r row hrow
    rw [scr0_first V c ⟨0, h⟩ rfl, pay0_2_apply, pay0_1_apply, ← minBelow_zero (fun m => Cert.Spec.dist (arr0_x V c) (arr0_y V c) b row m)]
    exact minBelow_block _ _ 0 (by omega) fun q m hm => arr0_tdist V c ⟨0, h⟩ b r q row m hrow hm
  | succ n ih =>
    intro h b r row hrow
    by_cases h0 : (n + 1) % 8 = 0
    · rw [scr0_first V c ⟨n + 1, h⟩ h0, pay0_2_apply, pay0_1_apply, ← minBelow_zero (fun m => Cert.Spec.dist (arr0_x V c) (arr0_y V c) b row m), h0]
      exact minBelow_block _ _ 0 (by omega) fun q m hm => arr0_tdist V c ⟨n + 1, h⟩ b r q row m hrow (by rw [hm]; show 1024 * 0 + q.val = 1024 * ((n + 1) % 8) + q.val; rw [h0])
    · rw [scr0_next V c ⟨n + 1, h⟩ h0, pay0_2_apply]
      rw [show (scr0 V c ((⟨n + 1, h⟩ : Fin cfg0.N).val - 1) _ : Vec Ideal S4x512 .f32) (ix2 b r) = minBelow (fun m => Cert.Spec.dist (arr0_x V c) (arr0_y V c) b row m) (1024 * (n % 8 + 1)) from
        ih (Nat.lt_of_succ_lt h) b r row (by rw [hrow]; omega)]
      rw [show 1024 * (n % 8 + 1) = 1024 * ((n + 1) % 8) from by omega]
      exact minBelow_block _ _ ((n + 1) % 8) (Nat.mod_lt _ (by omega)) fun q m hm => arr0_tdist V c ⟨n + 1, h⟩ b r q row m hrow hm

end

/-! ## From the blocks written back to the array -/

/-- The rows' minima at an index whose coordinates are known. -/
theorem arr0_minD_apply (x y : S4x8192x3.Idx → EReal) (i : S4x8192.Idx) (b : Fin 4) (n : Fin 8192)
    (h0 : (i 0).val = b.val) (h1 : (i 1).val = n.val) :
    Cert.Spec.minD x y i = (Finset.univ : Finset (Fin 8192)).fold min Cert.Spec.pinf (fun m => Cert.Spec.dist x y b n m) := by
  have e0 : i 0 = b := Fin.ext h0
  have e1 : i 1 = n := Fin.ext h1
  unfold Cert.Spec.minD
  rw [e0, e1]

section
variable (V : (c : Dev nD) → (b : Ref sig .tc) → Buf (Elt Ideal) ((c : Thread nD τ).loc b))

/-- What a sweep's last point writes back is its block of the rows' minima over all of the second operand. -/
theorem arr0_flushed (c : Dev nD) (t : Fin cfg0.N) (hf : (cfg0.win 2).flush t = true) :
    (dat0 (F := Ideal) V c).flushed 2 t = ((cfg0.win 2).blk t).view.read (Elt Ideal) (Cert.Spec.minD (arr0_x V c) (arr0_y V c)) := by
  have h7 : t.val % 8 = 7 := (arr0_flush t).mp hf
  have hN : t.val < 128 := lt_of_lt_of_eq t.isLt arr0_N
  obtain ⟨-, -, -, -, -, -, e0, e1⟩ := arr0_idx t
  show (cfg0.win 2).cut (grid0.coords t) ((dat0 (F := Ideal) V c).after 2 t) = _
  rw [after0_2]
  funext j
  rw [View.read_apply]
  obtain ⟨b, r, rfl⟩ : ∃ (b : Fin 4) (r : Fin 512), j = ix2 b r := ⟨j 0, j 1, eq_ix2 (n0 := 4) (n1 := 512) j⟩
  have hr : r.val < 512 := r.isLt
  show (scr0 V c t.val t.isLt : Vec Ideal S4x512 .f32) (ix2 b r) = Cert.Spec.minD (arr0_x V c) (arr0_y V c) (((cfg0.win 2).blk t).view.emb (ix2 b r))
  rw [arr0_scr V c t.val t.isLt b r ⟨512 * (t.val / 8) + r.val, by omega⟩ rfl, h7, show 1024 * (7 + 1) = 8192 from rfl, minBelow_all]
  refine (arr0_minD_apply _ _ _ b _ ?_ ?_).symm
  · show win0_2.index t (0 : Fin 2) * 4 + 1 * b.val = b.val; rw [e0]; omega
  · show win0_2.index t (1 : Fin 2) * 512 + 1 * r.val = 512 * (t.val / 8) + r.val; rw [e1]; omega

/-- Every row of the output is in the block some sweep's last point writes back: row `n` in that of point `8·(n/512) + 7`. -/
theorem arr0_cover (i : S4x8192.Idx) : ∃ t : Fin cfg0.N, (cfg0.win 2).flush t = true ∧ i ∈ ((cfg0.win 2).blk t).view.set := by
  have h0 : (i 0).val < 4 := (i 0).isLt
  have h1 : (i 1).val < 8192 := (i 1).isLt
  have ht : 8 * ((i 1).val / 512) + 7 < cfg0.N := by rw [arr0_N]; omega
  refine ⟨⟨8 * ((i 1).val / 512) + 7, ht⟩, (arr0_flush _).mpr (by show (8 * ((i 1).val / 512) + 7) % 8 = 7; omega), ?_⟩
  obtain ⟨-, -, -, -, -, -, e0, e1⟩ := arr0_idx ⟨8 * ((i 1).val / 512) + 7, ht⟩
  show i ∈ ((View.whole (Pipeline.arrRef spec0 2)).slice (win0_2.rect ⟨8 * ((i 1).val / 512) + 7, ht⟩)).set
  rw [View.set_slice_whole, Rect.mem_set_unit]
  intro a
  match a with
  | ⟨0, _⟩ =>
    show win0_2.index ⟨8 * ((i 1).val / 512) + 7, ht⟩ (0 : Fin 2) * 4 ≤ (i 0).val ∧ (i 0).val < win0_2.index ⟨8 * ((i 1).val / 512) + 7, ht⟩ (0 : Fin 2) * 4 + 4
    rw [e0]; omega
  | ⟨1, _⟩ =>
    show win0_2.index ⟨8 * ((i 1).val / 512) + 7, ht⟩ (1 : Fin 2) * 512 ≤ (i 1).val ∧ (i 1).val < win0_2.index ⟨8 * ((i 1).val / 512) + 7, ht⟩ (1 : Fin 2) * 512 + 512
    rw [e1]; show (8 * ((i 1).val / 512) + 7) / 8 * 512 ≤ (i 1).val ∧ (i 1).val < (8 * ((i 1).val / 512) + 7) / 8 * 512 + 512; omega

/-- After region 0, run from buffers at `V`, its output array holds for every point of the first operand the least
    expanded squared distance to a point of the second. -/
theorem arr0_final (c : Dev nD) :
    ((dat0 (F := Ideal) V c).arrAt 2 cfg0.N : S4x8192.Idx → EReal)
      = Cert.Spec.minD (V c (Pipeline.arrRef spec0 0) : S4x8192x3.Idx → EReal) (V c (Pipeline.arrRef spec0 1) : S4x8192x3.Idx → EReal) :=
  (dat0 (F := Ideal) V c).arrAt_eq_of_cover 2 (Cert.Spec.minD (arr0_x V c) (arr0_y V c)) (arr0_flushed V c) arr0_cover

end

end Cert.KernelIdeal.Hand

end
-- ==== Proof.KI.Final.lean ====
import proofs.«160153_j42795054137808_1_alg».proof.Proof.KI.Run
import proofs.«160153_j42795054137808_1_alg».proof.Proof.KI.Value0
import proofs.«160153_j42795054137808_1_alg».proof.Proof.KI.Value1
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

/-! # The idealized kernel's result: the mean of the two directions' least squared distances -/

variable (m : (ℓ : Loc nD τ sig) → Buf (Elt Ideal) ℓ) (ρ : Dev nD → PrngReg)

/-- The host operations after the regions compute the averaging tail of the two regions' output arrays. -/
theorem W3_result (c : Dev nD) :
    (W3 (F := Ideal) m c (Proc.devRef .tc main_v10) : S_.Idx → EReal)
      = Cert.Spec.tail reducesTo_S4x8192_S4_d1 h_S_ bcast_S_S4 reducesTo_S4_S_d0
          (W2 (F := Ideal) m c (Proc.devRef .tc main_v0)) (W2 (F := Ideal) m c (Proc.devRef .tc main_v1)) := by
  show StableHlo.after hostOps2 (W2 (F := Ideal) m c) (Proc.devRef .tc main_v10) = _
  unfold Cert.Spec.tail
  after_results

/-- Region 1 does not touch region 0's output array, which holds the first direction's minima, -/
theorem W2_v0 (c : Dev nD) :
    (W2 (F := Ideal) m c (Proc.devRef .tc main_v0) : S4x8192.Idx → EReal)
      = Cert.Spec.minD (m ((c : Thread nD τ).loc main_arg0)) (m ((c : Thread nD τ).loc main_arg1)) :=
  (W2_of_ne m c main_v0 (by decide)).trans ((W1_arr m c 2).trans (arr0_final (V0 m) c))

/-- and region 1's output array holds the second direction's (its operands are the arguments, swapped). -/
theorem W2_v1 (c : Dev nD) :
    (W2 (F := Ideal) m c (Proc.devRef .tc main_v1) : S4x8192.Idx → EReal)
      = Cert.Spec.minD (m ((c : Thread nD τ).loc main_arg1)) (m ((c : Thread nD τ).loc main_arg0)) := by
  refine (W2_arr m c 2).trans ((arr1_final (V1 m) c).trans ?_)
  exact congrArg₂ Cert.Spec.minD (W1_main_arg1 m c) (W1_main_arg0 m c)

/-- THE VALUE RUN of the idealized kernel. -/
theorem value_run : θ_run defs (onTc (τ := τ) (main (F := Ideal))) ⟨m, fun _ => 0, ρ⟩ (fun r => ∀ c : Dev nD,
      r.2.mem ((c.tc : Thread nD τ).loc main_v10)
        = Cert.Spec.tail reducesTo_S4x8192_S4_d1 h_S_ bcast_S_S4 reducesTo_S4_S_d0
            (Cert.Spec.minD (m ((c.tc : Thread nD τ).loc main_arg0)) (m ((c.tc : Thread nD τ).loc main_arg1)))
            (Cert.Spec.minD (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v10 (by decide))).trans ((W3_result m c).trans (by rw [W2_v0 m c, W2_v1 m c])),
     (h c _ (mem_uc main_arg0 (by decide))).trans (W3_main_arg0 m c),
     (h c _ (mem_uc main_arg1 (by decide))).trans (W3_main_arg1 m c)⟩) (run_all m ρ)

end Cert.KernelIdeal.Hand

end
-- ==== Proof.RefValue.lean ====
import proofs.«160153_j42795054137808_1_alg».proof.Proof.Gen.ReferenceIdeal.Run
import proofs.«160153_j42795054137808_1_alg».proof.Proof.Gen.ReferenceIdeal.Read
import proofs.«160153_j42795054137808_1_alg».proof.Proof.Spec

noncomputable section

namespace Cert.ReferenceIdeal.RefValue

open Cert.ReferenceIdeal Cert.ReferenceIdeal.Gen Idealize.ShloMosaic Idealize.ShloMosaic.ValueIdx

/-! # The reference's value at the extended reals

The reference computes, for two point clouds `x, y : [4, 8192, 3]`, the matrix `D[b, n, m] = |x_n|² + |y_m|² − 2 ⟨x_n, y_m⟩`
(the squared norms as sums of squares over the three coordinates, the inner product as a contraction over them), then the
minimum of `D` along `m` and along `n` from +∞, and ends with the means. Read index by index, `D` is the specification's
`dist`; each minimum over one axis is the fold of `min` over that axis's coordinates, so the minimum along `m` is
`minD x y` and the minimum along `n`, by the symmetry of `dist`, is `minD y x`; the remaining operations are the
specification's `tail` word for word. -/

/-- The reference's matrix of expanded squared distances, as the composed term of the two point clouds. -/
def D (x y : FVec Ideal S4x8192x3 .f32) : FVec Ideal S4x8192x8192 .f32 :=
  subf (addf (broadcastInDim S4x8192x8192 ![0, 1, 2] bcast_S4x8192x1_S4x8192x8192_0_1_2 (broadcastInDim S4x8192x1 ![0, 1] bcast_S4x8192_S4x8192x1_0_1 (Host.reduceAdd (mulf x x) (constant S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf y y) (constant S_ .f32 0x00000000#32) reducesTo_S4x8192x3_S4x8192_d2 h_S_)))) (mulf (broadcastInDim S4x8192x8192 ![] bcast_S_S4x8192x8192 (constant S_ .f32 0x40000000#32)) (Host.dotGeneral dot_S4x8192x3_S4x8192x3_S4x8192x8192_2_2_1_1_0_0 none x y))

/-- `D` is the stage the generated read lemmas name (the same term, stage by stage). -/
theorem D_eq_val (x y : FVec Ideal S4x8192x3 .f32) : D x y = Read.val_main_v12 (F := Ideal) x y := rfl

/-- The word of +0.0 is the extended real zero. -/
theorem zero32 : Ideal.ofBits .f32 0x00000000#32 = 0 := by simp [Ideal.ofBits, Ideal.ieee]

/-! ## The operand indices behind entry (b, n, m) -/

/-- `|x_n|²` is broadcast along `m`: its `k`-th summand is read at (b, n, k). -/
theorem idx_sq_x (b : Fin 4) (n m : Fin 8192) (k : Fin 3) :
    Read.idx_main_v1 (Read.idx_main_v5 (Read.idx_main_v7 (ix3 b n m))) k = ix3 b n k := by
  funext a; match a with | ⟨0, _⟩ => rfl | ⟨1, _⟩ => rfl | ⟨2, _⟩ => rfl

/-- `|y_m|²` is broadcast along `n`: its `k`-th summand is read at (b, m, k). -/
theorem idx_sq_y (b : Fin 4) (n m : Fin 8192) (k : Fin 3) :
    Read.idx_main_v3 (Read.idx_main_v6 (Read.idx_main_v8 (ix3 b n m))) k = ix3 b m k := by
  funext a; match a with | ⟨0, _⟩ => rfl | ⟨1, _⟩ => rfl | ⟨2, _⟩ => rfl

/-- The contraction's left factor at (b, n, m), coordinate `k`, is `x` at (b, n, k). -/
theorem idx_dot_l (b : Fin 4) (n m : Fin 8192) (k : Fin 3) : Read.lidx_main_v4 (ix3 b n m) k = ix3 b n k := by
  funext a; match a with | ⟨0, _⟩ => rfl | ⟨1, _⟩ => rfl | ⟨2, _⟩ => rfl

/-- The contraction's right factor at (b, n, m), coordinate `k`, is `y` at (b, m, k). -/
theorem idx_dot_r (b : Fin 4) (n m : Fin 8192) (k : Fin 3) : Read.ridx_main_v4 (ix3 b n m) k = ix3 b m k := by
  funext a; match a with | ⟨0, _⟩ => rfl | ⟨1, _⟩ => rfl | ⟨2, _⟩ => rfl

/-- Entry (b, n, m) of the reference's matrix is the specification's expanded squared distance of `x_n` and `y_m`:
    each sum of squares starts from the zero word, which adds nothing, and the literal 2.0 is the same word on both sides. -/
theorem D_apply (x y : FVec Ideal S4x8192x3 .f32) (b : Fin 4) (n m : Fin 8192) :
    D x y (ix3 b n m) = Cert.Spec.dist x y b n m := by
  rw [D_eq_val]
  rw [Read.val_main_v12_apply, Read.val_main_v9_apply, Read.val_main_v11_apply, Read.val_main_v7_apply, Read.val_main_v5_apply,
    Read.val_main_v1_apply, Read.val_main_v8_apply, Read.val_main_v6_apply, Read.val_main_v3_apply, Read.val_main_v10_apply,
    Read.val_main_v4_apply]
  simp only [idx_sq_x, idx_sq_y, idx_dot_l, idx_dot_r, Read.val_main_v0_apply, Read.val_main_v2_apply, Read.val_main_cst_apply,
    Read.val_main_cst_0_apply, Read.val_main_cst_1_apply, Ideal.ofBits_def, Ideal.addf_def, Ideal.subf_def, Ideal.mulf_def, zero32,
    zero_add]
  rfl

/-! ## The two minima -/

/-- Over a per-point index `j = (b, n)`, the matrix index with `k` inserted on the last axis is (b, n, k). -/
theorem lift_d2 (h : S4x8192x8192.Reduces [2] S4x8192) (j : S4x8192.Idx) (k : Fin (S4x8192x8192.size 2)) :
    h.lift j k = ix3 (j 0) (j 1) (⟨k.val, k.isLt⟩ : Fin 8192) := by
  funext c; apply Fin.ext
  match c with | ⟨0, _⟩ => rfl | ⟨1, _⟩ => rfl | ⟨2, _⟩ => rfl

/-- Over a per-point index `j = (b, m)`, the matrix index with `k` inserted on the middle axis is (b, k, m). -/
theorem lift_d1 (h : S4x8192x8192.Reduces [1] S4x8192) (j : S4x8192.Idx) (k : Fin (S4x8192x8192.size 1)) :
    h.lift j k = ix3 (j 0) (⟨k.val, k.isLt⟩ : Fin 8192) (j 1) := by
  funext c; apply Fin.ext
  match c with | ⟨0, _⟩ => rfl | ⟨1, _⟩ => rfl | ⟨2, _⟩ => rfl

/-- The minimum of `D` along its last axis from +∞ is, for each point of `x`, the least squared distance to a point
    of `y`: a reduction over one axis with a commutative, associative body is the fold over that axis's coordinates. -/
theorem min2_eq (x y : FVec Ideal S4x8192x3 .f32) :
    Host.reduce FloatOps.minimumf (D x y) (constant (F := Ideal) S_ .f32 0x7F800000#32) reducesTo_S4x8192x8192_S4x8192_d2 h_S_
      = Cert.Spec.minD x y := by
  funext i
  have h : S4x8192x8192.Reduces [2] S4x8192 := by decide
  rw [Host.reduce_eq_fold_single FloatOps.minimumf (D x y) _ reducesTo_S4x8192x8192_S4x8192_d2 h h_S_ i]
  have hf : (D x y ∘ h.lift i) = fun k : Fin 8192 => Cert.Spec.dist x y (i 0) (i 1) k :=
    funext fun k => (congrArg (D x y) (lift_d2 h i k)).trans (D_apply x y _ _ _)
  exact congrArg (fun f => Finset.fold min Cert.Spec.pinf f (Finset.univ : Finset (Fin 8192))) hf

/-- The minimum of `D` along its middle axis from +∞ is, for each point of `y`, the least squared distance to a point
    of `x`: entry (b, k, m) is `dist x y b k m = dist y x b m k`, the expanded squared distance being symmetric. -/
theorem min1_eq (x y : FVec Ideal S4x8192x3 .f32) :
    Host.reduce FloatOps.minimumf (D x y) (constant (F := Ideal) S_ .f32 0x7F800000#32) reducesTo_S4x8192x8192_S4x8192_d1 h_S_
      = Cert.Spec.minD y x := by
  funext i
  have h : S4x8192x8192.Reduces [1] S4x8192 := by decide
  rw [Host.reduce_eq_fold_single FloatOps.minimumf (D x y) _ reducesTo_S4x8192x8192_S4x8192_d1 h h_S_ i]
  have hf : (D x y ∘ h.lift i) = fun k : Fin 8192 => Cert.Spec.dist y x (i 0) (i 1) k :=
    funext fun k => ((congrArg (D x y) (lift_d1 h i k)).trans (D_apply x y _ _ _)).trans (Cert.Spec.dist_comm x y _ _ _).symm
  exact congrArg (fun f => Finset.fold min Cert.Spec.pinf f (Finset.univ : Finset (Fin 8192))) hf

/-! ## The whole result -/

/-- The reference's result, as the composed term of the two point clouds, is the specification's `tail` of the two
    directions' minima: the two reductions of `D` are `minD x y` and `minD y x`, and the operations after them are
    `tail`'s, one for one. -/
theorem result_eq (x y : FVec Ideal S4x8192x3 .f32) :
    Host.divf (Host.reduceAdd (addf (Host.divf (Host.reduceAdd (Host.reduce FloatOps.minimumf (subf (addf (broadcastInDim S4x8192x8192 ![0, 1, 2] bcast_S4x8192x1_S4x8192x8192_0_1_2 (broadcastInDim S4x8192x1 ![0, 1] bcast_S4x8192_S4x8192x1_0_1 (Host.reduceAdd (mulf x x) (constant S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf y y) (constant S_ .f32 0x00000000#32) reducesTo_S4x8192x3_S4x8192_d2 h_S_)))) (mulf (broadcastInDim S4x8192x8192 ![] bcast_S_S4x8192x8192 (constant S_ .f32 0x40000000#32)) (Host.dotGeneral dot_S4x8192x3_S4x8192x3_S4x8192x8192_2_2_1_1_0_0 none x y))) (constant S_ .f32 0x7F800000#32) reducesTo_S4x8192x8192_S4x8192_d2 h_S_) (constant S_ .f32 0x00000000#32) reducesTo_S4x8192_S4_d1 h_S_) (broadcastInDim S4 ![] bcast_S_S4 (constant S_ .f32 0x46000000#32))) (Host.divf (Host.reduceAdd (Host.reduce FloatOps.minimumf (subf (addf (broadcastInDim S4x8192x8192 ![0, 1, 2] bcast_S4x8192x1_S4x8192x8192_0_1_2 (broadcastInDim S4x8192x1 ![0, 1] bcast_S4x8192_S4x8192x1_0_1 (Host.reduceAdd (mulf x x) (constant S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf y y) (constant S_ .f32 0x00000000#32) reducesTo_S4x8192x3_S4x8192_d2 h_S_)))) (mulf (broadcastInDim S4x8192x8192 ![] bcast_S_S4x8192x8192 (constant S_ .f32 0x40000000#32)) (Host.dotGeneral dot_S4x8192x3_S4x8192x3_S4x8192x8192_2_2_1_1_0_0 none x y))) (constant S_ .f32 0x7F800000#32) reducesTo_S4x8192x8192_S4x8192_d1 h_S_) (constant S_ .f32 0x00000000#32) reducesTo_S4x8192_S4_d1 h_S_) (broadcastInDim S4 ![] bcast_S_S4 (constant S_ .f32 0x46000000#32)))) (constant S_ .f32 0x00000000#32) reducesTo_S4_S_d0 h_S_) (constant S_ .f32 0x40800000#32)
      = Cert.Spec.tail reducesTo_S4x8192_S4_d1 h_S_ bcast_S_S4 reducesTo_S4_S_d0 (Cert.Spec.minD x y) (Cert.Spec.minD y x) := by
  rw [← min2_eq x y, ← min1_eq x y]
  rfl

end Cert.ReferenceIdeal.RefValue

end
-- ==== Proof.lean ====
/- The certificate of a chamfer-distance kernel against its jnp reference.

   Both programs compute, for two clouds x, y of 8192 points in 4 batches, the mean over the batches of
   (mean over the points of x of the least squared distance to a point of y) + (the same with x and y exchanged),
   the squared distance taken in the expanded form |x_n|² + |y_m|² − 2⟨x_n, y_m⟩. The kernel computes each direction
   by one pallas_call that sweeps the other cloud in blocks of 1024 points and keeps a running minimum per point in a
   scratch buffer; the reference materialises all pairs and reduces. Over the extended reals the two agree with no use of
   finiteness: a minimum taken block by block is the minimum, and sums and products commute.

   The frames of the two kernel programs (printed and idealized: the same text read at two float instances) are proved
   over the several-regions launch theorem, each region's invariant carrying the scratch's contents from point to point
   (Proof/K, Proof/KI); the idealized kernel's value is read off that run (Proof/KI/Value0, Value1, Final); the reference's
   off its run (Proof/RefValue); both are the one function of Proof/Spec. -/
import proofs.«160153_j42795054137808_1_alg».proof.Defs
import proofs.«160153_j42795054137808_1_alg».proof.Proof.Gen.Kernel
import proofs.«160153_j42795054137808_1_alg».proof.Proof.Gen.KernelIdeal
import proofs.«160153_j42795054137808_1_alg».proof.Proof.Gen.ReferenceIdeal
import proofs.«160153_j42795054137808_1_alg».proof.Proof.Gen.Pre_finite_inputs
import proofs.«160153_j42795054137808_1_alg».proof.Proof.Gen.ReferenceIdeal.Run
import proofs.«160153_j42795054137808_1_alg».proof.Proof.K.Run
import proofs.«160153_j42795054137808_1_alg».proof.Proof.KI.Final
import proofs.«160153_j42795054137808_1_alg».proof.Proof.RefValue
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Hand.frame (F := Bits) m ρ
/-- The idealized kernel likewise. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the averaging tail of the two directions' least squared distances. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
